-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x4096x64 : Shape := ⟨3, ![64, 4096, 64]⟩
abbrev S64x64x256 : Shape := ⟨3, ![64, 64, 256]⟩
abbrev S64x256 : Shape := ⟨2, ![64, 256]⟩
abbrev S64x256x256 : Shape := ⟨3, ![64, 256, 256]⟩
abbrev S64x256x1 : Shape := ⟨3, ![64, 256, 1]⟩
abbrev S64x1 : Shape := ⟨2, ![64, 1]⟩
abbrev S_ : Shape := ⟨0, ![]⟩

class Facts : Prop where
  bcast_S_S64x4096x64 : S_.BroadcastsInDim S64x4096x64 (![] : Fin 0 → Fin S64x4096x64.rank)
  reducesTo_S64x4096x64_S_d0_1_2 : S64x4096x64.ReducesTo [0, 1, 2] S_
  h_S_ : 0 < S_.numel
  bcast_S_S64x64x256 : S_.BroadcastsInDim S64x64x256 (![] : Fin 0 → Fin S64x64x256.rank)
  reducesTo_S64x64x256_S_d0_1_2 : S64x64x256.ReducesTo [0, 1, 2] S_
  bcast_S_S64x256 : S_.BroadcastsInDim S64x256 (![] : Fin 0 → Fin S64x256.rank)
  reducesTo_S64x256_S_d0_1 : S64x256.ReducesTo [0, 1] S_
  bcast_S_S64x256x256 : S_.BroadcastsInDim S64x256x256 (![] : Fin 0 → Fin S64x256x256.rank)
  reducesTo_S64x256x256_S_d0_1_2 : S64x256x256.ReducesTo [0, 1, 2] S_
  bcast_S_S64x256x1 : S_.BroadcastsInDim S64x256x1 (![] : Fin 0 → Fin S64x256x1.rank)
  reducesTo_S64x256x1_S_d0_1_2 : S64x256x1.ReducesTo [0, 1, 2] S_
  bcast_S_S64x1 : S_.BroadcastsInDim S64x1 (![] : Fin 0 → Fin S64x1.rank)
  reducesTo_S64x1_S_d0_1 : S64x1.ReducesTo [0, 1] S_

variable [Facts]

def fn_part1 {F : FTy → Type} [FloatOps F] (main_arg4 : FVec F S64x256 .f32) (main_arg5 : FVec F S64x256x1 .f32) (main_arg6 : FVec F S64x1 .f32) (main_v13 : IVec S_ 1) (main_v16 : IVec S64x256x256 1) : IVec S_ 1 :=
  let main_c_5 : IVec S_ 1 := constantI S_ 1 1#1
  let main_v17 : IVec S_ 1 := (fun x v => Host.reduce IntOp.andi x v reducesTo_S64x256x256_S_d0_1_2 h_S_) main_v16 main_c_5
  let main_v18 : IVec S_ 1 := andi main_v13 main_v17
  let main_v19 : FVec F S64x256 .f32 := Host.absf main_arg4
  let main_cst_6 : FVec F S_ .f32 := constant S_ .f32 0x7F800000#32
  let main_v20 : FVec F S64x256 .f32 := broadcastInDim S64x256 ![] bcast_S_S64x256 main_cst_6
  let main_v21 : IVec S64x256 1 := cmpf .olt main_v19 main_v20
  let main_c_7 : IVec S_ 1 := constantI S_ 1 1#1
  let main_v22 : IVec S_ 1 := (fun x v => Host.reduce IntOp.andi x v reducesTo_S64x256_S_d0_1 h_S_) main_v21 main_c_7
  let main_v23 : IVec S_ 1 := andi main_v18 main_v22
  let main_v24 : FVec F S64x256x1 .f32 := Host.absf main_arg5
  let main_cst_8 : FVec F S_ .f32 := constant S_ .f32 0x7F800000#32
  let main_v25 : FVec F S64x256x1 .f32 := broadcastInDim S64x256x1 ![] bcast_S_S64x256x1 main_cst_8
  let main_v26 : IVec S64x256x1 1 := cmpf .olt main_v24 main_v25
  let main_c_9 : IVec S_ 1 := constantI S_ 1 1#1
  let main_v27 : IVec S_ 1 := (fun x v => Host.reduce IntOp.andi x v reducesTo_S64x256x1_S_d0_1_2 h_S_) main_v26 main_c_9
  let main_v28 : IVec S_ 1 := andi main_v23 main_v27
  let main_v29 : FVec F S64x1 .f32 := Host.absf main_arg6
  let main_cst_10 : FVec F S_ .f32 := constant S_ .f32 0x7F800000#32
  let main_v30 : FVec F S64x1 .f32 := broadcastInDim S64x1 ![] bcast_S_S64x1 main_cst_10
  let main_v31 : IVec S64x1 1 := cmpf .olt main_v29 main_v30
  let main_c_11 : IVec S_ 1 := constantI S_ 1 1#1
  let main_v32 : IVec S_ 1 := (fun x v => Host.reduce IntOp.andi x v reducesTo_S64x1_S_d0_1 h_S_) main_v31 main_c_11
  let main_v33 : IVec S_ 1 := andi main_v28 main_v32
  main_v33

def fn {F : FTy → Type} [FloatOps F] (main_arg0 : FVec F S64x4096x64 .f32) (main_arg1 : FVec F S64x64x256 .f32) (main_arg2 : FVec F S64x256 .f32) (main_arg3 : FVec F S64x256x256 .f32) (main_arg4 : FVec F S64x256 .f32) (main_arg5 : FVec F S64x256x1 .f32) (main_arg6 : FVec F S64x1 .f32) : IVec S_ 1 :=
  let main_v0 : FVec F S64x4096x64 .f32 := Host.absf main_arg0
  let main_cst : FVec F S_ .f32 := constant S_ .f32 0x7F800000#32
  let main_v1 : FVec F S64x4096x64 .f32 := broadcastInDim S64x4096x64 ![] bcast_S_S64x4096x64 main_cst
  let main_v2 : IVec S64x4096x64 1 := cmpf .olt main_v0 main_v1
  let main_c : IVec S_ 1 := constantI S_ 1 1#1
  let main_v3 : IVec S_ 1 := (fun x v => Host.reduce IntOp.andi x v reducesTo_S64x4096x64_S_d0_1_2 h_S_) main_v2 main_c
  let main_v4 : FVec F S64x64x256 .f32 := Host.absf main_arg1
  let main_cst_0 : FVec F S_ .f32 := constant S_ .f32 0x7F800000#32
  let main_v5 : FVec F S64x64x256 .f32 := broadcastInDim S64x64x256 ![] bcast_S_S64x64x256 main_cst_0
  let main_v6 : IVec S64x64x256 1 := cmpf .olt main_v4 main_v5
  let main_c_1 : IVec S_ 1 := constantI S_ 1 1#1
  let main_v7 : IVec S_ 1 := (fun x v => Host.reduce IntOp.andi x v reducesTo_S64x64x256_S_d0_1_2 h_S_) main_v6 main_c_1
  let main_v8 : IVec S_ 1 := andi main_v3 main_v7
  let main_v9 : FVec F S64x256 .f32 := Host.absf main_arg2
  let main_cst_2 : FVec F S_ .f32 := constant S_ .f32 0x7F800000#32
  let main_v10 : FVec F S64x256 .f32 := broadcastInDim S64x256 ![] bcast_S_S64x256 main_cst_2
  let main_v11 : IVec S64x256 1 := cmpf .olt main_v9 main_v10
  let main_c_3 : IVec S_ 1 := constantI S_ 1 1#1
  let main_v12 : IVec S_ 1 := (fun x v => Host.reduce IntOp.andi x v reducesTo_S64x256_S_d0_1 h_S_) main_v11 main_c_3
  let main_v13 : IVec S_ 1 := andi main_v8 main_v12
  let main_v14 : FVec F S64x256x256 .f32 := Host.absf main_arg3
  let main_cst_4 : FVec F S_ .f32 := constant S_ .f32 0x7F800000#32
  let main_v15 : FVec F S64x256x256 .f32 := broadcastInDim S64x256x256 ![] bcast_S_S64x256x256 main_cst_4
  let main_v16 : IVec S64x256x256 1 := cmpf .olt main_v14 main_v15
  fn_part1 (F := F) main_arg4 main_arg5 main_arg6 main_v13 main_v16
-- ==== Kernel.lean ====
abbrev S64x4096x64 : Shape := ⟨3, ![64, 4096, 64]⟩
abbrev S64x64x256 : Shape := ⟨3, ![64, 64, 256]⟩
abbrev S64x256 : Shape := ⟨2, ![64, 256]⟩
abbrev S64x256x256 : Shape := ⟨3, ![64, 256, 256]⟩
abbrev S64x256x1 : Shape := ⟨3, ![64, 256, 1]⟩
abbrev S64x1 : Shape := ⟨2, ![64, 1]⟩
abbrev S64x64x4096 : Shape := ⟨3, ![64, 64, 4096]⟩
abbrev S64x256x64 : Shape := ⟨3, ![64, 256, 64]⟩
abbrev S64x1x256 : Shape := ⟨3, ![64, 1, 256]⟩
abbrev S64x1x1 : Shape := ⟨3, ![64, 1, 1]⟩
abbrev S64x1x4096 : Shape := ⟨3, ![64, 1, 4096]⟩
abbrev S1x64x4096 : Shape := ⟨3, ![1, 64, 4096]⟩
abbrev S1x256x64 : Shape := ⟨3, ![1, 256, 64]⟩
abbrev S1x256x1 : Shape := ⟨3, ![1, 256, 1]⟩
abbrev S1x256x256 : Shape := ⟨3, ![1, 256, 256]⟩
abbrev S1x1x256 : Shape := ⟨3, ![1, 1, 256]⟩
abbrev S1x1x1 : Shape := ⟨3, ![1, 1, 1]⟩
abbrev S1x1x4096 : Shape := ⟨3, ![1, 1, 4096]⟩
abbrev S64x4096 : Shape := ⟨2, ![64, 4096]⟩
abbrev S256x64 : Shape := ⟨2, ![256, 64]⟩
abbrev S256x4096 : Shape := ⟨2, ![256, 4096]⟩
abbrev S256x1 : Shape := ⟨2, ![256, 1]⟩
abbrev S256x256 : Shape := ⟨2, ![256, 256]⟩
abbrev S1x256 : Shape := ⟨2, ![1, 256]⟩
abbrev S1x4096 : Shape := ⟨2, ![1, 4096]⟩
abbrev S1x1 : Shape := ⟨2, ![1, 1]⟩
abbrev S64x4096x1 : Shape := ⟨3, ![64, 4096, 1]⟩

abbrev nBuf : Space → Nat
  | .hbm => 20
  | .vmem => 16
  | .smem => 0
  | _ => 0

abbrev bufTy : (tb : Table) → Fin (tcTables nBuf tb) → BufTy
  | .hbm, ⟨0, _⟩ => ⟨S64x4096x64, .f32⟩
  | .hbm, ⟨1, _⟩ => ⟨S64x64x256, .f32⟩
  | .hbm, ⟨2, _⟩ => ⟨S64x256, .f32⟩
  | .hbm, ⟨3, _⟩ => ⟨S64x256x256, .f32⟩
  | .hbm, ⟨4, _⟩ => ⟨S64x256, .f32⟩
  | .hbm, ⟨5, _⟩ => ⟨S64x256x1, .f32⟩
  | .hbm, ⟨6, _⟩ => ⟨S64x1, .f32⟩
  | .hbm, ⟨7, _⟩ => ⟨S64x64x4096, .f32⟩
  | .hbm, ⟨8, _⟩ => ⟨S64x64x4096, .bf16⟩
  | .hbm, ⟨9, _⟩ => ⟨S64x256x64, .f32⟩
  | .hbm, ⟨10, _⟩ => ⟨S64x256x64, .bf16⟩
  | .hbm, ⟨11, _⟩ => ⟨S64x256x1, .f32⟩
  | .hbm, ⟨12, _⟩ => ⟨S64x256x256, .f32⟩
  | .hbm, ⟨13, _⟩ => ⟨S64x256x256, .bf16⟩
  | .hbm, ⟨14, _⟩ => ⟨S64x256x1, .f32⟩
  | .hbm, ⟨15, _⟩ => ⟨S64x1x256, .f32⟩
  | .hbm, ⟨16, _⟩ => ⟨S64x1x256, .bf16⟩
  | .hbm, ⟨17, _⟩ => ⟨S64x1x1, .f32⟩
  | .hbm, ⟨18, _⟩ => ⟨S64x1x4096, .f32⟩
  | .hbm, ⟨19, _⟩ => ⟨S64x4096x1, .f32⟩
  | .local _ .vmem, ⟨0, _⟩ => ⟨S1x64x4096, .bf16⟩
  | .local _ .vmem, ⟨1, _⟩ => ⟨S1x64x4096, .bf16⟩
  | .local _ .vmem, ⟨2, _⟩ => ⟨S1x256x64, .bf16⟩
  | .local _ .vmem, ⟨3, _⟩ => ⟨S1x256x64, .bf16⟩
  | .local _ .vmem, ⟨4, _⟩ => ⟨S1x256x1, .f32⟩
  | .local _ .vmem, ⟨5, _⟩ => ⟨S1x256x1, .f32⟩
  | .local _ .vmem, ⟨6, _⟩ => ⟨S1x256x256, .bf16⟩
  | .local _ .vmem, ⟨7, _⟩ => ⟨S1x256x256, .bf16⟩
  | .local _ .vmem, ⟨8, _⟩ => ⟨S1x256x1, .f32⟩
  | .local _ .vmem, ⟨9, _⟩ => ⟨S1x256x1, .f32⟩
  | .local _ .vmem, ⟨10, _⟩ => ⟨S1x1x256, .bf16⟩
  | .local _ .vmem, ⟨11, _⟩ => ⟨S1x1x256, .bf16⟩
  | .local _ .vmem, ⟨12, _⟩ => ⟨S1x1x1, .f32⟩
  | .local _ .vmem, ⟨13, _⟩ => ⟨S1x1x1, .f32⟩
  | .local _ .vmem, ⟨14, _⟩ => ⟨S1x1x4096, .f32⟩
  | .local _ .vmem, ⟨15, _⟩ => ⟨S1x1x4096, .f32⟩
  | _, _ => ⟨S64x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  transposes_S64x4096x64_S64x64x4096_0_2_1 : S64x4096x64.Transposes [0, 2, 1] S64x64x4096
  bitsLt_bf16_f32 : FTy.bits .bf16 < FTy.bits .f32
  transposes_S64x64x256_S64x256x64_0_2_1 : S64x64x256.Transposes [0, 2, 1] S64x256x64
  shapeCasts_S64x256_S64x256x1 : S64x256.ShapeCasts S64x256x1
  transposes_S64x256x256_S64x256x256_0_2_1 : S64x256x256.Transposes [0, 2, 1] S64x256x256
  transposes_S64x256x1_S64x1x256_0_2_1 : S64x256x1.Transposes [0, 2, 1] S64x1x256
  shapeCasts_S64x1_S64x1x1 : S64x1.ShapeCasts S64x1x1
  inb_S1x64x4096_S1x64x4096_0_0_0 : ∀ a, (![0, 0, 0] : Fin 3 → Nat) a + S1x64x4096.size a ≤ S1x64x4096.size a
  h_S1x64x4096 : 0 < S1x64x4096.numel
  shapeCasts_S1x64x4096_S64x4096 : S1x64x4096.ShapeCasts S64x4096
  inb_S1x256x64_S1x256x64_0_0_0 : ∀ a, (![0, 0, 0] : Fin 3 → Nat) a + S1x256x64.size a ≤ S1x256x64.size a
  h_S1x256x64 : 0 < S1x256x64.numel
  shapeCasts_S1x256x64_S256x64 : S1x256x64.ShapeCasts S256x64
  inb_S1x256x1_S1x256x1_0_0_0 : ∀ a, (![0, 0, 0] : Fin 3 → Nat) a + S1x256x1.size a ≤ S1x256x1.size a
  h_S1x256x1 : 0 < S1x256x1.numel
  shapeCasts_S1x256x1_S256x1 : S1x256x1.ShapeCasts S256x1
  broadcasts_S256x1_S256x4096 : S256x1.Broadcasts S256x4096
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  inb_S1x1x256_S1x1x256_0_0_0 : ∀ a, (![0, 0, 0] : Fin 3 → Nat) a + S1x1x256.size a ≤ S1x1x256.size a
  h_S1x1x256 : 0 < S1x1x256.numel
  shapeCasts_S1x1x256_S1x256 : S1x1x256.ShapeCasts S1x256
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  broadcasts_S1x1_S1x4096 : S1x1.Broadcasts S1x4096
  inb_S1x1x4096_S1x1x4096_0_0_0 : ∀ a, (![0, 0, 0] : Fin 3 → Nat) a + S1x1x4096.size a ≤ S1x1x4096.size a
  h_S1x1x4096 : 0 < S1x1x4096.numel
  shapeCasts_S1x1x4096_S1x4096 : S1x1x4096.ShapeCasts S1x4096
  shapeCasts_S1x4096_S1x1x4096 : S1x4096.ShapeCasts S1x1x4096
  transposes_S64x1x4096_S64x4096x1_0_2_1 : S64x1x4096.Transposes [0, 2, 1] S64x4096x1
  dot_S256x64_S64x4096_S256x4096_1_0_0_1_n_n_wf : DotDims.WF S256x64 S64x4096 S256x4096 [1] [0] [0] [1] [] []
  dot_S256x256_S256x4096_S256x4096_1_0_0_1_n_n_wf : DotDims.WF S256x256 S256x4096 S256x4096 [1] [0] [0] [1] [] []
  dot_S1x256_S256x4096_S1x4096_1_0_0_1_n_n_wf : DotDims.WF S1x256 S256x4096 S1x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x4096.size a ≤ S64x64x4096.size a
  hwx0_0 : ∀ i : grid0.Coords, EltTy.bits .bf16 = 32 ∨ (Rect.block (s := S64x64x4096) S1x64x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x64.size a ≤ S64x256x64.size a
  hwx0_1 : ∀ i : grid0.Coords, EltTy.bits .bf16 = 32 ∨ (Rect.block (s := S64x256x64) S1x256x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x1.size a ≤ S64x256x1.size a
  hwx0_2 : ∀ i : grid0.Coords, EltTy.bits .f32 = 32 ∨ (Rect.block (s := S64x256x1) S1x256x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x256.size a ≤ S64x256x256.size a
  hwx0_3 : ∀ i : grid0.Coords, EltTy.bits .bf16 = 32 ∨ (Rect.block (s := S64x256x256) S1x256x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x1.size a ≤ S64x256x1.size a
  hwx0_4 : ∀ i : grid0.Coords, EltTy.bits .f32 = 32 ∨ (Rect.block (s := S64x256x1) S1x256x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x256.size a ≤ S64x1x256.size a
  hwx0_5 : ∀ i : grid0.Coords, EltTy.bits .bf16 = 32 ∨ (Rect.block (s := S64x1x256) S1x1x256.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x1.size a ≤ S64x1x1.size a
  hwx0_6 : ∀ i : grid0.Coords, EltTy.bits .f32 = 32 ∨ (Rect.block (s := S64x1x1) S1x1x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x4096.size a ≤ S64x1x4096.size a
  hwx0_7 : ∀ i : grid0.Coords, EltTy.bits .f32 = 32 ∨ (Rect.block (s := S64x1x4096) S1x1x4096.size (cc0_transform_7 i) (hinb0_7 i)).WholeWords (EltTy.packing .f32)

variable [Facts₀]

def dot_S256x64_S64x4096_S256x4096_1_0_0_1_n_n : DotDims S256x64 S64x4096 S256x4096 where
  lhsContracting := [1]
  rhsContracting := [0]
  lhsNonContracting := [0]
  rhsNonContracting := [1]
  lhsBatch := []
  rhsBatch := []
  wf := dot_S256x64_S64x4096_S256x4096_1_0_0_1_n_n_wf
def dot_S256x256_S256x4096_S256x4096_1_0_0_1_n_n : DotDims S256x256 S256x4096 S256x4096 where
  lhsContracting := [1]
  rhsContracting := [0]
  lhsNonContracting := [0]
  rhsNonContracting := [1]
  lhsBatch := []
  rhsBatch := []
  wf := dot_S256x256_S256x4096_S256x4096_1_0_0_1_n_n_wf
def dot_S1x256_S256x4096_S1x4096_1_0_0_1_n_n : DotDims S1x256 S256x4096 S1x4096 where
  lhsContracting := [1]
  rhsContracting := [0]
  lhsNonContracting := [0]
  rhsNonContracting := [1]
  lhsBatch := []
  rhsBatch := []
  wf := dot_S1x256_S256x4096_S1x4096_1_0_0_1_n_n_wf

abbrev win0_0 : Pipeline.Window sig grid0 :=
  Pipeline.Window.ofSpec (Memref.whole main_v1) S1x64x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x256x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x256x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x256x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v9) S1x1x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v10) S1x1x1.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v11) S1x1x4096.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S64x4096x64 : Shape := ⟨3, ![64, 4096, 64]⟩
abbrev S64x64x256 : Shape := ⟨3, ![64, 64, 256]⟩
abbrev S64x256 : Shape := ⟨2, ![64, 256]⟩
abbrev S64x256x256 : Shape := ⟨3, ![64, 256, 256]⟩
abbrev S64x256x1 : Shape := ⟨3, ![64, 256, 1]⟩
abbrev S64x1 : Shape := ⟨2, ![64, 1]⟩
abbrev S64x4096x256 : Shape := ⟨3, ![64, 4096, 256]⟩
abbrev S64x1x256 : Shape := ⟨3, ![64, 1, 256]⟩
abbrev S_ : Shape := ⟨0, ![]⟩
abbrev S64x4096x1 : Shape := ⟨3, ![64, 4096, 1]⟩
abbrev S64x1x1 : Shape := ⟨3, ![64, 1, 1]⟩

abbrev nBuf : Space → Nat
  | .hbm => 25
  | .vmem => 0
  | .smem => 0
  | _ => 0

abbrev bufTy : (tb : Table) → Fin (tcTables nBuf tb) → BufTy
  | .hbm, ⟨0, _⟩ => ⟨S64x4096x64, .f32⟩
  | .hbm, ⟨1, _⟩ => ⟨S64x64x256, .f32⟩
  | .hbm, ⟨2, _⟩ => ⟨S64x256, .f32⟩
  | .hbm, ⟨3, _⟩ => ⟨S64x256x256, .f32⟩
  | .hbm, ⟨4, _⟩ => ⟨S64x256, .f32⟩
  | .hbm, ⟨5, _⟩ => ⟨S64x256x1, .f32⟩
  | .hbm, ⟨6, _⟩ => ⟨S64x1, .f32⟩
  | .hbm, ⟨7, _⟩ => ⟨S64x4096x256, .f32⟩
  | .hbm, ⟨8, _⟩ => ⟨S64x1x256, .f32⟩
  | .hbm, ⟨9, _⟩ => ⟨S64x4096x256, .f32⟩
  | .hbm, ⟨10, _⟩ => ⟨S64x4096x256, .f32⟩
  | .hbm, ⟨11, _⟩ => ⟨S_, .f32⟩
  | .hbm, ⟨12, _⟩ => ⟨S64x4096x256, .f32⟩
  | .hbm, ⟨13, _⟩ => ⟨S64x4096x256, .f32⟩
  | .hbm, ⟨14, _⟩ => ⟨S64x4096x256, .f32⟩
  | .hbm, ⟨15, _⟩ => ⟨S64x1x256, .f32⟩
  | .hbm, ⟨16, _⟩ => ⟨S64x4096x256, .f32⟩
  | .hbm, ⟨17, _⟩ => ⟨S64x4096x256, .f32⟩
  | .hbm, ⟨18, _⟩ => ⟨S_, .f32⟩
  | .hbm, ⟨19, _⟩ => ⟨S64x4096x256, .f32⟩
  | .hbm, ⟨20, _⟩ => ⟨S64x4096x256, .f32⟩
  | .hbm, ⟨21, _⟩ => ⟨S64x4096x1, .f32⟩
  | .hbm, ⟨22, _⟩ => ⟨S64x1x1, .f32⟩
  | .hbm, ⟨23, _⟩ => ⟨S64x4096x1, .f32⟩
  | .hbm, ⟨24, _⟩ => ⟨S64x4096x1, .f32⟩
  | _, _ => ⟨S64x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_cst : Ref sig .tc := ⟨.hbm, 11, rfl⟩
abbrev main_call0_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_call1_cst : Ref sig .tc := ⟨.hbm, 18, rfl⟩
abbrev main_call1_v0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩

abbrev nD : Nat := 1
abbrev τ : Topo := Topo.v7x

variable {F : FTy → Type} [FloatOps F]

class Facts₀ : Prop where
  bcast_S64x256_S64x1x256_0_2 : S64x256.BroadcastsInDim S64x1x256 (![0, 2] : Fin 2 → Fin S64x1x256.rank)
  bcast_S64x1x256_S64x4096x256_0_1_2 : S64x1x256.BroadcastsInDim S64x4096x256 (![0, 1, 2] : Fin 3 → Fin S64x4096x256.rank)
  bcast_S_S64x4096x256 : S_.BroadcastsInDim S64x4096x256 (![] : Fin 0 → Fin S64x4096x256.rank)
  bcast_S64x1_S64x1x1_0_2 : S64x1.BroadcastsInDim S64x1x1 (![0, 2] : Fin 2 → Fin S64x1x1.rank)
  bcast_S64x1x1_S64x4096x1_0_1_2 : S64x1x1.BroadcastsInDim S64x4096x1 (![0, 1, 2] : Fin 3 → Fin S64x4096x1.rank)
  dot_S64x4096x64_S64x64x256_S64x4096x256_2_1_1_2_0_0_wf : DotDims.WF S64x4096x64 S64x64x256 S64x4096x256 [2] [1] [1] [2] [0] [0]
  dot_S64x4096x256_S64x256x256_S64x4096x256_2_1_1_2_0_0_wf : DotDims.WF S64x4096x256 S64x256x256 S64x4096x256 [2] [1] [1] [2] [0] [0]
  dot_S64x4096x256_S64x256x1_S64x4096x1_2_1_1_2_0_0_wf : DotDims.WF S64x4096x256 S64x256x1 S64x4096x1 [2] [1] [1] [2] [0] [0]

variable [Facts₀]

def dot_S64x4096x64_S64x64x256_S64x4096x256_2_1_1_2_0_0 : DotDims S64x4096x64 S64x64x256 S64x4096x256 where
  lhsContracting := [2]
  rhsContracting := [1]
  lhsNonContracting := [1]
  rhsNonContracting := [2]
  lhsBatch := [0]
  rhsBatch := [0]
  wf := dot_S64x4096x64_S64x64x256_S64x4096x256_2_1_1_2_0_0_wf
def dot_S64x4096x256_S64x256x256_S64x4096x256_2_1_1_2_0_0 : DotDims S64x4096x256 S64x256x256 S64x4096x256 where
  lhsContracting := [2]
  rhsContracting := [1]
  lhsNonContracting := [1]
  rhsNonContracting := [2]
  lhsBatch := [0]
  rhsBatch := [0]
  wf := dot_S64x4096x256_S64x256x256_S64x4096x256_2_1_1_2_0_0_wf
def dot_S64x4096x256_S64x256x1_S64x4096x1_2_1_1_2_0_0 : DotDims S64x4096x256 S64x256x1 S64x4096x1 where
  lhsContracting := [2]
  rhsContracting := [1]
  lhsNonContracting := [1]
  rhsNonContracting := [2]
  lhsBatch := [0]
  rhsBatch := [0]
  wf := dot_S64x4096x256_S64x256x1_S64x4096x1_2_1_1_2_0_0_wf

class Facts : Prop extends Facts₀ where

variable [Facts]
-- ==== Proof.Mlp.lean ====
/-
  The function both programs compute, stated once over the extended reals.

  There are 64 independent models. Model m owns 4096 tokens of 64 features, and sends each token
  through three affine layers with a rectifier after the first two:

      hidden1 m b h = max (Σ_i xs[m,b,i] · W1[m,i,h] + b1[m,h]) 0        (256 units)
      hidden2 m b k = max (Σ_h hidden1 m b h · W2[m,h,k] + b2[m,k]) 0    (256 units)
      output  m b   =      Σ_k hidden2 m b k · W3[m,k,0] + b3[m,0]       (one unit)

  The reference lays the result out as [model, token, 1]; the kernel region writes it as
  [model, 1, token] and a final transposition swaps the last two axes.

  The kernel multiplies with the weight on the left (it carries every operand transposed, so each
  product is weight row times token column); multiplication on the extended reals is commutative,
  so that arrangement is the same number. No other law is needed, and in particular nothing here
  depends on the inputs being finite.
-/
import Idealize.ShloMosaic.PureOps.Ideal
import Idealize.ShloMosaic.Lib.ValueIdx

noncomputable section

namespace Cert.Mlp

open Idealize.ShloMosaic Idealize.ShloMosaic.ValueIdx

/-- Tokens, [model, token, feature]. -/
abbrev Tokens := (⟨3, ![64, 4096, 64]⟩ : Shape).Idx → EReal
/-- First-layer weights, [model, feature, unit]. -/
abbrev Weights1 := (⟨3, ![64, 64, 256]⟩ : Shape).Idx → EReal
/-- A hidden layer's bias, [model, unit]. -/
abbrev Bias := (⟨2, ![64, 256]⟩ : Shape).Idx → EReal
/-- Second-layer weights, [model, unit in, unit out]. -/
abbrev Weights2 := (⟨3, ![64, 256, 256]⟩ : Shape).Idx → EReal
/-- Last-layer weights, [model, unit, 1]. -/
abbrev Weights3 := (⟨3, ![64, 256, 1]⟩ : Shape).Idx → EReal
/-- Last-layer bias, [model, 1]. -/
abbrev Bias3 := (⟨2, ![64, 1]⟩ : Shape).Idx → EReal

variable (xs : Tokens) (W1 : Weights1) (b1 : Bias) (W2 : Weights2) (b2 : Bias) (W3 : Weights3) (b3 : Bias3)

/-- Unit `h` of the first hidden layer of model `m` on token `b`. -/
def hidden1 (m : Fin 64) (b : Fin 4096) (h : Fin 256) : EReal :=
  max ((∑ i : Fin 64, xs (ix3 m b i) * W1 (ix3 m i h)) + b1 (ix2 m h)) 0

/-- Unit `k` of the second hidden layer. -/
def hidden2 (m : Fin 64) (b : Fin 4096) (k : Fin 256) : EReal :=
  max ((∑ h : Fin 256, hidden1 xs W1 b1 m b h * W2 (ix3 m h k)) + b2 (ix2 m k)) 0

/-- The network's one output for model `m` and token `b`. -/
def output (m : Fin 64) (b : Fin 4096) : EReal :=
  (∑ k : Fin 256, hidden2 xs W1 b1 W2 b2 m b k * W3 (ix3 m k 0)) + b3 (ix2 m 0)

/-- The result laid out [model, token, 1]. -/
def result : (⟨3, ![64, 4096, 1]⟩ : Shape).Idx → EReal := fun i => output xs W1 b1 W2 b2 W3 b3 (i 0) (i 1)

/-- The result laid out [model, 1, token]. -/
def resultT : (⟨3, ![64, 1, 4096]⟩ : Shape).Idx → EReal := fun i => output xs W1 b1 W2 b2 W3 b3 (i 0) (i 2)

/-- With every product written weight first the three layers give the same number:
    multiplication of extended reals commutes, term by term under each sum. -/
theorem output_weight_first (m : Fin 64) (b : Fin 4096) :
    (∑ k : Fin 256, W3 (ix3 m k 0) *
        max ((∑ h : Fin 256, W2 (ix3 m h k) *
          max ((∑ i : Fin 64, W1 (ix3 m i h) * xs (ix3 m b i)) + b1 (ix2 m h)) 0) + b2 (ix2 m k)) 0)
      + b3 (ix2 m 0)
    = output xs W1 b1 W2 b2 W3 b3 m b := by
  unfold output hidden2 hidden1
  refine congrArg (· + b3 (ix2 m 0)) (Finset.sum_congr rfl fun k _ => ?_)
  rw [mul_comm]
  refine congrArg (fun s => max (s + b2 (ix2 m k)) 0 * W3 (ix3 m k 0)) (Finset.sum_congr rfl fun h _ => ?_)
  rw [mul_comm]
  exact congrArg (fun s => max (s + b1 (ix2 m h)) 0 * W2 (ix3 m h k)) (Finset.sum_congr rfl fun i _ => mul_comm _ _)

end Cert.Mlp

end
-- ==== Proof.RefValue.lean ====
/-
  The reference program's result is the specification's `result`.

  The reference is written directly as three batched contractions: tokens against first-layer
  weights over the feature axis, the rectified sum against second-layer weights over the first
  hidden axis, and that again against the last-layer weights, each followed by the model's bias
  broadcast along the token axis and (for the first two) a maximum with zero. Read at an index
  [m, b, ·] each contraction is a finite sum over the contracted coordinate with the model and
  token coordinates held fixed, which is literally how `Mlp.hidden1`, `Mlp.hidden2` and
  `Mlp.output` are written; the zero the rectifier compares with is the word 0x00000000.
-/
import proofs.«110798_j82523501625564_1_alg».proof.Proof.Gen.ReferenceIdeal.Read
import proofs.«110798_j82523501625564_1_alg».proof.Proof.Mlp
import Idealize.ShloMosaic.PureOps.Ideal.Laws

noncomputable section

namespace Cert.ReferenceIdeal.RefValue

open Cert.ReferenceIdeal Cert.ReferenceIdeal.Read Idealize.ShloMosaic Idealize.ShloMosaic.ValueIdx

variable (x0 : Cert.Mlp.Tokens) (x1 : Cert.Mlp.Weights1) (x2 : Cert.Mlp.Bias) (x3 : Cert.Mlp.Weights2)
  (x4 : Cert.Mlp.Bias) (x5 : Cert.Mlp.Weights3) (x6 : Cert.Mlp.Bias3)

/-- After the first rectifier the reference holds `hidden1`: at [m, b, h] the contraction runs over
    the feature coordinate of token (m, b) and column h of model m's weights, the bias is b1[m, h]. -/
theorem relu1_apply (m : Fin 64) (b : Fin 4096) (h : Fin 256) :
    val_main_v4 (F := Ideal) x0 x1 x2 (ix3 m b h) = Cert.Mlp.hidden1 x0 x1 x2 m b h := by
  rw [val_main_v4_apply, val_main_v3_apply, val_main_v0_apply, val_main_v2_apply, val_main_v1_apply,
    val_main_call0_v0_apply, val_main_call0_cst_apply]
  unfold Cert.Mlp.hidden1
  refine congrArg₂ max (congrArg₂ (· + ·) (Finset.sum_congr rfl fun k _ => ?_) ?_) Ideal.ofBits_zero_f32
  · refine congrArg₂ (· * ·) (congrArg x0 (funext fun a => ?_)) (congrArg x1 (funext fun a => ?_))
    · match a with
      | ⟨0, _⟩ => rfl
      | ⟨1, _⟩ => rfl
      | ⟨2, _⟩ => rfl
    · match a with
      | ⟨0, _⟩ => rfl
      | ⟨1, _⟩ => rfl
      | ⟨2, _⟩ => rfl
  · refine congrArg x2 (funext fun a => ?_)
    match a with
    | ⟨0, _⟩ => rfl
    | ⟨1, _⟩ => rfl

/-- After the second rectifier it holds `hidden2`. -/
theorem relu2_apply (m : Fin 64) (b : Fin 4096) (k : Fin 256) :
    val_main_v9 (F := Ideal) x0 x1 x2 x3 x4 (ix3 m b k) = Cert.Mlp.hidden2 x0 x1 x2 x3 x4 m b k := by
  rw [val_main_v9_apply, val_main_v8_apply, val_main_v5_apply, val_main_v7_apply, val_main_v6_apply,
    val_main_call1_v0_apply, val_main_call1_cst_apply]
  unfold Cert.Mlp.hidden2
  refine congrArg₂ max (congrArg₂ (· + ·) (Finset.sum_congr rfl fun h _ => ?_) ?_) Ideal.ofBits_zero_f32
  · refine congrArg₂ (· * ·) ?_ (congrArg x3 (funext fun a => ?_))
    · refine Eq.trans (congrArg (val_main_v4 (F := Ideal) x0 x1 x2) (funext fun a => ?_)) (relu1_apply x0 x1 x2 m b h)
      match a with
      | ⟨0, _⟩ => rfl
      | ⟨1, _⟩ => rfl
      | ⟨2, _⟩ => rfl
    · match a with
      | ⟨0, _⟩ => rfl
      | ⟨1, _⟩ => rfl
      | ⟨2, _⟩ => rfl
  · refine congrArg x4 (funext fun a => ?_)
    match a with
    | ⟨0, _⟩ => rfl
    | ⟨1, _⟩ => rfl

/-- The reference's result array is the specification's `result`. -/
theorem result_eq :
    val_main_v13 (F := Ideal) x0 x1 x2 x3 x4 x5 x6 = Cert.Mlp.result x0 x1 x2 x3 x4 x5 x6 := by
  funext i
  obtain ⟨m, b, o, rfl⟩ : ∃ (m : Fin 64) (b : Fin 4096) (o : Fin 1), i = ix3 m b o := ⟨i 0, i 1, i 2, eq_ix3 i⟩
  have ho : o = 0 := Subsingleton.elim _ _
  subst ho
  rw [val_main_v13_apply, val_main_v10_apply, val_main_v12_apply, val_main_v11_apply]
  unfold Cert.Mlp.result Cert.Mlp.output
  refine congrArg₂ (· + ·) (Finset.sum_congr rfl fun k _ => ?_) ?_
  · refine congrArg₂ (· * ·) ?_ (congrArg x5 (funext fun a => ?_))
    · refine Eq.trans (congrArg (val_main_v9 (F := Ideal) x0 x1 x2 x3 x4) (funext fun a => ?_)) (relu2_apply x0 x1 x2 x3 x4 m b k)
      match a with
      | ⟨0, _⟩ => rfl
      | ⟨1, _⟩ => rfl
      | ⟨2, _⟩ => rfl
    · match a with
      | ⟨0, _⟩ => rfl
      | ⟨1, _⟩ => rfl
      | ⟨2, _⟩ => rfl
  · refine congrArg x6 (funext fun a => ?_)
    match a with
    | ⟨0, _⟩ => rfl
    | ⟨1, _⟩ => rfl

end Cert.ReferenceIdeal.RefValue

end
-- ==== Proof.LibMatmul.lean ====
/-
  Two facts about matrix-shaped values over the extended reals, read at coordinates.

  * A rows-by-columns product [M, K] x [K, N] into a zero accumulator is, at (p, c), the sum over
    the shared coordinate k of left(p, k) · right(k, c).  What makes a product rows-by-columns is
    its six axis lists: no batch axis on either side, the left operand kept on its rows and
    contracted on its columns, the right operand contracted on its rows and kept on its columns.
    From the lists alone: the contraction has one axis, of extent K; the left operand is read at
    (output row, contraction position) and the right one at (contraction position, output column).

  * A column [a, 1] broadcast to [a, b] is, at (p, c), the column's entry at row p.
-/
import Idealize.ShloMosaic.PureOps.Ideal.Laws
import Idealize.ShloMosaic.Lib.ValueIdx
import Idealize.ShloMosaic.Lib.Pipeline.Value

noncomputable section

namespace Cert.LibMatmul

open Idealize.ShloMosaic Idealize.ShloMosaic.ValueIdx

section RowsByColumns

variable {M K N : ℕ} (d : DotDims ⟨2, ![M, K]⟩ ⟨2, ![K, N]⟩ ⟨2, ![M, N]⟩)
  (hlb : d.lhsBatch = []) (hln : d.lhsNonContracting = [0]) (hlc : d.lhsContracting = [1])
  (hrb : d.rhsBatch = []) (hrn : d.rhsNonContracting = [1]) (hrc : d.rhsContracting = [0])

/-- An index read at two spellings of one position is one coordinate. -/
private theorem val_congr {n : ℕ} {dims : Fin n → ℕ} (j : (a : Fin n) → Fin (dims a)) (p q : ℕ) (hp : p < n) (hq : q < n)
    (h : p = q) : (j ⟨p, hp⟩).val = (j ⟨q, hq⟩).val := by subst h; rfl

include hlc in
/-- One axis is contracted. -/
theorem contr_rank : d.contr.rank = 1 := by rw [d.rank_contr, hlc]; rfl

include hlc in
/-- Its extent is the left operand's column count. -/
theorem contr_size : d.contr.size ⟨0, by rw [contr_rank d hlc]; exact Nat.one_pos⟩ = K := by
  have h0 : 0 < d.lhsContracting.length := by rw [hlc]; exact Nat.one_pos
  refine (d.size_contr 0 h0).trans ?_
  rw [List.getElem_of_eq hlc h0]
  rfl

include hlb hln in
/-- The left operand's row is the output's row. -/
theorem lhs_row (j : (⟨2, ![M, N]⟩ : Shape).Idx) (q : d.contr.Idx) : (d.lhsIdx j q 0).val = (j 0).val := by
  unfold DotDims.lhsIdx
  rw [dif_neg (by rw [hlb]; exact List.not_mem_nil), dif_pos (by rw [hln]; exact List.mem_singleton.mpr rfl)]
  simp only [Fin.val_cast]
  exact val_congr j _ 0 _ Nat.zero_lt_two (by simp [hlb, hln])

include hlc in
/-- The left operand's column is the contraction position. -/
theorem lhs_col (j : (⟨2, ![M, N]⟩ : Shape).Idx) (q : d.contr.Idx) :
    (d.lhsIdx j q 1).val = (q ⟨0, by rw [contr_rank d hlc]; exact Nat.one_pos⟩).val :=
  d.lhsIdx_val_of_single hlc j q

include hlc hrc in
/-- The right operand's row is the contraction position. -/
theorem rhs_row (j : (⟨2, ![M, N]⟩ : Shape).Idx) (q : d.contr.Idx) :
    (d.rhsIdx j q 0).val = (q ⟨0, by rw [contr_rank d hlc]; exact Nat.one_pos⟩).val :=
  d.rhsIdx_val_of_single hrc j q

include hlb hln hrb hrn in
/-- The right operand's column is the output's column. -/
theorem rhs_col (j : (⟨2, ![M, N]⟩ : Shape).Idx) (q : d.contr.Idx) : (d.rhsIdx j q 1).val = (j 1).val := by
  unfold DotDims.rhsIdx
  rw [dif_neg (by rw [hrb]; exact List.not_mem_nil), dif_pos (by rw [hrn]; exact List.mem_singleton.mpr rfl)]
  simp only [Fin.val_cast]
  exact val_congr j _ 1 _ Nat.one_lt_two (by simp [hlb, hln, hrn])

include hlb hln hlc hrb hrn hrc in
/-- A product of an [M, K] by a [K, N] matrix accumulated into zero, at row `p` and column `c`,
    is `Σ_k left(p, k) · right(k, c)`: the one-axis contraction re-indexed by its coordinate. -/
theorem matmul_zero_ix2 {φ₁ φ₂ : FTy} (prec : Option ContractPrecision)
    (w : FVec Ideal ⟨2, ![M, K]⟩ φ₁) (x : FVec Ideal ⟨2, ![K, N]⟩ φ₂) (p : Fin M) (c : Fin N) :
    matmul d prec w x (constant (F := Ideal) ⟨2, ![M, N]⟩ .f32 0x00000000#32) (ix2 p c)
      = ∑ k : Fin K, w (ix2 p k) * x (ix2 k c) := by
  have hr := contr_rank d hlc
  have hs := contr_size d hlc
  refine (Ideal.matmul_constant_zero_apply d prec w x (ix2 p c)).trans ?_
  rw [← Equiv.sum_comp (contrEquiv1 d K hr hs).symm]
  refine Finset.sum_congr rfl fun k _ => ?_
  have hk := contrEquiv1_symm_val d K hr hs k
  have el : d.lhsIdx (ix2 p c) ((contrEquiv1 d K hr hs).symm k) = ix2 p k := funext fun a => Fin.ext (by
    match a with
    | ⟨0, _⟩ => exact lhs_row d hlb hln _ _
    | ⟨1, _⟩ => exact (lhs_col d hlc _ _).trans hk)
  have er : d.rhsIdx (ix2 p c) ((contrEquiv1 d K hr hs).symm k) = ix2 k c := funext fun a => Fin.ext (by
    match a with
    | ⟨0, _⟩ => exact (rhs_row d hlc hrc _ _).trans hk
    | ⟨1, _⟩ => exact rhs_col d hlb hln hrb hrn _ _)
  rw [el, er]

end RowsByColumns

/-- A column broadcast along a new second axis reads, at `(p, c)`, the column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibMatmul

end
-- ==== Proof.KernelPayload.lean ====
/-
  What the kernel body stores, read at one token.

  At one grid point the body holds one model's operands, every one of them transposed so that the
  token axis is last: the token block [1, 64, 4096] (feature, token), the first weights
  [1, 256, 64] (unit, feature), the second weights [1, 256, 256] (unit out, unit in), the last
  weights [1, 1, 256], and the biases as columns [1, 256, 1], [1, 256, 1], [1, 1, 1]. It drops the
  leading unit axis of each, and computes three products of a weight matrix by an activation
  matrix, each into a zero accumulator, each followed by the bias column broadcast along the token
  axis; the first two are rectified against zero and narrowed to bf16, which changes no value over
  the extended reals. The result [1, 4096] gets its leading unit axis back and is stored whole.

  Each product keeps the left operand's rows, contracts its columns against the right operand's
  rows, keeps the right operand's columns, and has no batch axis, so it is a plain sum over the
  shared coordinate. Read at token b the stored value is

      Σ_k w3[0,0,k] · max (Σ_h w2[0,k,h] · max (Σ_i w1[0,h,i] · x[0,i,b] + c1[0,h,0]) 0 + c2[0,k,0]) 0 + c3[0,0,0].
-/
import proofs.«110798_j82523501625564_1_alg».proof.Proof.Gen.KernelIdeal.Skeleton
import proofs.«110798_j82523501625564_1_alg».proof.Proof.LibMatmul
import Idealize.ShloMosaic.Lib.ValueLayout

noncomputable section

namespace Cert.KernelIdeal.Payload

open Cert.KernelIdeal Cert.KernelIdeal.Gen Idealize.ShloMosaic Idealize.ShloMosaic.ValueIdx

/-! ## One layer at a unit and a token -/

/-- First layer: weights [256, 64] by tokens [64, 4096], bias column, rectifier. -/
theorem first_layer_apply (w : FVec Ideal S256x64 .bf16) (x : FVec Ideal S64x4096 .bf16) (bias : FVec Ideal S256x1 .f32)
    (hb : S256x1.Broadcasts S256x4096) (h : Fin 256) (b : Fin 4096) :
    maximumf (addf (matmul dot_S256x64_S64x4096_S256x4096_1_0_0_1_n_n none w x (constant (F := Ideal) S256x4096 .f32 0x00000000#32))
        (broadcastTo S256x4096 bias hb)) (broadcast S256x4096 (Scalar.ofBits (F := Ideal) .f32 0x00000000#32)) (ix2 h b)
      = max ((∑ i : Fin 64, w (ix2 h i) * x (ix2 i b)) + bias (ix2 h (0 : Fin 1))) 0 :=
  congrArg₂ max (congrArg₂ (· + ·)
      (Cert.LibMatmul.matmul_zero_ix2 dot_S256x64_S64x4096_S256x4096_1_0_0_1_n_n rfl rfl rfl rfl rfl rfl none w x h b)
      (Cert.LibMatmul.broadcastTo_a1_ab_apply bias hb h b)) Ideal.ofBits_zero_f32

/-- Second layer: weights [256, 256] by the first activations [256, 4096]. -/
theorem second_layer_apply (w : FVec Ideal S256x256 .bf16) (x : FVec Ideal S256x4096 .bf16) (bias : FVec Ideal S256x1 .f32)
    (hb : S256x1.Broadcasts S256x4096) (k : Fin 256) (b : Fin 4096) :
    maximumf (addf (matmul dot_S256x256_S256x4096_S256x4096_1_0_0_1_n_n none w x (constant (F := Ideal) S256x4096 .f32 0x00000000#32))
        (broadcastTo S256x4096 bias hb)) (broadcast S256x4096 (Scalar.ofBits (F := Ideal) .f32 0x00000000#32)) (ix2 k b)
      = max ((∑ h : Fin 256, w (ix2 k h) * x (ix2 h b)) + bias (ix2 k (0 : Fin 1))) 0 :=
  congrArg₂ max (congrArg₂ (· + ·)
      (Cert.LibMatmul.matmul_zero_ix2 dot_S256x256_S256x4096_S256x4096_1_0_0_1_n_n rfl rfl rfl rfl rfl rfl none w x k b)
      (Cert.LibMatmul.broadcastTo_a1_ab_apply bias hb k b)) Ideal.ofBits_zero_f32

/-- Last layer: the one weight row [1, 256] by the second activations, the one bias entry added
    to every token, no rectifier. -/
theorem last_layer_apply (w : FVec Ideal S1x256 .bf16) (x : FVec Ideal S256x4096 .bf16) (bias : FVec Ideal S1x1 .f32)
    (hb : S1x1.Broadcasts S1x4096) (u : Fin 1) (b : Fin 4096) :
    addf (matmul dot_S1x256_S256x4096_S1x4096_1_0_0_1_n_n none w x (constant (F := Ideal) S1x4096 .f32 0x00000000#32))
        (broadcastTo S1x4096 bias hb) (ix2 u b)
      = (∑ k : Fin 256, w (ix2 u k) * x (ix2 k b)) + bias (ix2 u (0 : Fin 1)) :=
  congrArg₂ (· + ·)
    (Cert.LibMatmul.matmul_zero_ix2 dot_S1x256_S256x4096_S1x4096_1_0_0_1_n_n rfl rfl rfl rfl rfl rfl none w x u b)
    (Cert.LibMatmul.broadcastTo_a1_ab_apply bias hb u b)

/-! ## The stored value at a token -/

/-- The body's stored value at token `b`, in terms of the seven blocks it loaded: the unit axis
    added for the store is dropped again, the last layer is opened at `(0, b)`, under its sum the
    second layer at `(k, b)`, under that the first at `(h, b)`, and every operand is read through
    the cast that dropped its leading unit axis. -/
theorem stored_apply (x0 : Vec Ideal S1x64x4096 .bf16) (x1 : Vec Ideal S1x256x64 .bf16) (x2 : Vec Ideal S1x256x1 .f32)
    (x3 : Vec Ideal S1x256x256 .bf16) (x4 : Vec Ideal S1x256x1 .f32) (x5 : Vec Ideal S1x1x256 .bf16) (x6 : Vec Ideal S1x1x1 .f32)
    (u v : Fin 1) (b : Fin 4096) :
    k0_pay1 (F := Ideal) (k0_pay2 x0 x1 x2 x3 x4 x5 x6) (ix3 u v b)
      = (∑ k : Fin 256, x5 (ix3 (0 : Fin 1) (0 : Fin 1) k) *
          max ((∑ h : Fin 256, x3 (ix3 (0 : Fin 1) k h) *
            max ((∑ i : Fin 64, x1 (ix3 (0 : Fin 1) h i) * x0 (ix3 (0 : Fin 1) i b)) + x2 (ix3 (0 : Fin 1) h (0 : Fin 1))) 0)
              + x4 (ix3 (0 : Fin 1) k (0 : Fin 1))) 0)
        + x6 (ix3 (0 : Fin 1) (0 : Fin 1) (0 : Fin 1)) := by
  have hv : v = 0 := Subsingleton.elim _ _
  subst hv
  unfold k0_pay1 k0_pay2
  dsimp only
  refine (shapeCast_ab_1ab_apply _ _ u (0 : Fin 1) b).trans ?_
  refine (last_layer_apply _ _ _ _ (0 : Fin 1) b).trans ?_
  refine congrArg₂ (· + ·) (Finset.sum_congr rfl fun k _ => congrArg₂ (· * ·) (shapeCast_1ab_ab_apply _ _ (0 : Fin 1) k) ?_)
    (shapeCast_1ab_ab_apply _ _ (0 : Fin 1) (0 : Fin 1))
  refine (second_layer_apply _ _ _ _ k b).trans ?_
  refine congrArg₂ max (congrArg₂ (· + ·) (Finset.sum_congr rfl fun h _ => congrArg₂ (· * ·) (shapeCast_1ab_ab_apply _ _ k h) ?_)
    (shapeCast_1ab_ab_apply _ _ k (0 : Fin 1))) rfl
  refine (first_layer_apply _ _ _ _ h b).trans ?_
  exact congrArg₂ max (congrArg₂ (· + ·) (Finset.sum_congr rfl fun i _ => congrArg₂ (· * ·) (shapeCast_1ab_ab_apply _ _ h i)
    (shapeCast_1ab_ab_apply _ _ i b)) (shapeCast_1ab_ab_apply _ _ h (0 : Fin 1))) rfl

end Cert.KernelIdeal.Payload

end
-- ==== Proof.KernelInputs.lean ====
/-
  What the kernel region finds in each of its seven input arrays, and in each block of them.

  Before the region the program transposes the last two axes of the tokens and of the three weight
  arrays (and narrows them to bf16, which over the extended reals changes nothing), and gives each
  bias a trailing unit axis. So, with a the model:

      tokens'   [a, i, b] = xs [a, b, i]        weights1' [a, h, i] = W1 [a, i, h]
      weights2' [a, k, h] = W2 [a, h, k]        weights3' [a, 0, k] = W3 [a, k, 0]
      bias1'    [a, h, 0] = b1 [a, h]           bias2'    [a, k, 0] = b2 [a, k]
      bias3'    [a, 0, 0] = b3 [a, 0]

  The grid has one axis of 64 points, one per model. Every window's block at point t is the whole
  slab of model t: its block index is (t, 0, 0) and its extent on the first axis is one, so the
  block's entry (0, r, s) is the array's entry (t, r, s).
-/
import proofs.«110798_j82523501625564_1_alg».proof.Proof.Gen.KernelIdeal.Frame
import Idealize.ShloMosaic.Lib.StableHlo.Run
import Idealize.ShloMosaic.Lib.ValueLayout
import Idealize.ShloMosaic.Lib.ValueIdx

noncomputable section

namespace Cert.KernelIdeal.Inputs

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-- An [a, b] array given a trailing unit axis reads, at (p, q, z), the operand at (p, q). -/
theorem shapeCast_ab_ab1_apply {α : Type} {a b : ℕ} (x : (⟨2, ![a, b]⟩ : Shape).Idx → α)
    (h : (⟨2, ![a, b]⟩ : Shape).ShapeCasts ⟨3, ![a, b, 1]⟩) (p : Fin a) (q : Fin b) (z : Fin 1) :
    shapeCast ⟨3, ![a, b, 1]⟩ x h (ix3 p q z) = x (ix2 p q) :=
  shapeCast_apply x h _ _ (by
    have hz : z.val = 0 := by omega
    rw [Shape.rowMajor_val_three, Shape.rowMajor_val_two]
    show p.val * b + q.val = (p.val * b + q.val) * 1 + z.val
    rw [hz, Nat.mul_one, Nat.add_zero])

/-! ## The arrays as the region finds them -/

theorem tokens_apply (c : Dev nD) (a : Fin 64) (i : Fin 64) (b : Fin 4096) :
    V m c main_v1 (ix3 a i b) = m ((c : Thread nD τ).loc main_arg0) (ix3 a b i) := by
  show StableHlo.after hostOps0 (fun b => m (c, b)) (Proc.devRef .tc main_v1) (ix3 a i b) = _
  after_results
  exact transpose_ix3_021_apply _ _ a i b

theorem weights1_apply (c : Dev nD) (a : Fin 64) (h : Fin 256) (i : Fin 64) :
    V m c main_v3 (ix3 a h i) = m ((c : Thread nD τ).loc main_arg1) (ix3 a i h) := by
  show StableHlo.after hostOps0 (fun b => m (c, b)) (Proc.devRef .tc main_v3) (ix3 a h i) = _
  after_results
  exact transpose_ix3_021_apply _ _ a h i

theorem bias1_apply (c : Dev nD) (a : Fin 64) (h : Fin 256) (z : Fin 1) :
    V m c main_v4 (ix3 a h z) = m ((c : Thread nD τ).loc main_arg2) (ix2 a h) := by
  show StableHlo.after hostOps0 (fun b => m (c, b)) (Proc.devRef .tc main_v4) (ix3 a h z) = _
  after_results
  exact shapeCast_ab_ab1_apply _ _ a h z

theorem weights2_apply (c : Dev nD) (a : Fin 64) (k : Fin 256) (h : Fin 256) :
    V m c main_v6 (ix3 a k h) = m ((c : Thread nD τ).loc main_arg3) (ix3 a h k) := by
  show StableHlo.after hostOps0 (fun b => m (c, b)) (Proc.devRef .tc main_v6) (ix3 a k h) = _
  after_results
  exact transpose_ix3_021_apply _ _ a k h

theorem bias2_apply (c : Dev nD) (a : Fin 64) (k : Fin 256) (z : Fin 1) :
    V m c main_v7 (ix3 a k z) = m ((c : Thread nD τ).loc main_arg4) (ix2 a k) := by
  show StableHlo.after hostOps0 (fun b => m (c, b)) (Proc.devRef .tc main_v7) (ix3 a k z) = _
  after_results
  exact shapeCast_ab_ab1_apply _ _ a k z

theorem weights3_apply (c : Dev nD) (a : Fin 64) (z : Fin 1) (k : Fin 256) :
    V m c main_v9 (ix3 a z k) = m ((c : Thread nD τ).loc main_arg5) (ix3 a k z) := by
  show StableHlo.after hostOps0 (fun b => m (c, b)) (Proc.devRef .tc main_v9) (ix3 a z k) = _
  after_results
  exact transpose_ix3_021_apply _ _ a z k

theorem bias3_apply (c : Dev nD) (a : Fin 64) (y z : Fin 1) :
    V m c main_v10 (ix3 a y z) = m ((c : Thread nD τ).loc main_arg6) (ix2 a y) := by
  show StableHlo.after hostOps0 (fun b => m (c, b)) (Proc.devRef .tc main_v10) (ix3 a y z) = _
  after_results
  exact shapeCast_ab_ab1_apply _ _ a y z

/-! ## The blocks -/

/-- The model a grid point works on. -/
def model (t : Fin cfg0.N) : Fin 64 := ⟨t.val, N_0 ▸ t.isLt⟩

/-- Every window's block index at point `t` is `(t, 0, 0)`: decided over the 64 points. -/
theorem index_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0)
    ∧ (win0_4.index t (0 : Fin 3) = t.val ∧ win0_4.index t (1 : Fin 3) = 0 ∧ win0_4.index t (2 : Fin 3) = 0)
    ∧ (win0_5.index t (0 : Fin 3) = t.val ∧ win0_5.index t (1 : Fin 3) = 0 ∧ win0_5.index t (2 : Fin 3) = 0)
    ∧ (win0_6.index t (0 : Fin 3) = t.val ∧ win0_6.index t (1 : Fin 3) = 0 ∧ win0_6.index t (2 : Fin 3) = 0)
    ∧ (win0_7.index t (0 : Fin 3) = t.val ∧ win0_7.index t (1 : Fin 3) = 0 ∧ win0_7.index t (2 : Fin 3) = 0) :=
  (by decide +kernel : ∀ t : Fin grid0.N, _)

theorem tokens_block (c : Dev nD) (t : Fin cfg0.N) (z : Fin 1) (i : Fin 64) (b : Fin 4096) :
    iblk m c 0 t (ix3 z i b) = m ((c : Thread nD τ).loc main_arg0) (ix3 (model t) b i) := by
  obtain ⟨⟨e0, e1, e2⟩, -⟩ := index_facts t
  have hz : z.val = 0 := by omega
  show V m c main_v1 (((cfg0.win 0).blk t).view.emb (ix3 z i b)) = _
  have he : ((cfg0.win 0).blk t).view.emb (ix3 z i b) = ix3 (model t) i b := by
    funext a; apply Fin.ext
    match a with
    | ⟨0, _⟩ => show win0_0.index t (0 : Fin 3) * 1 + 1 * z.val = t.val; omega
    | ⟨1, _⟩ => show win0_0.index t (1 : Fin 3) * 64 + 1 * i.val = i.val; omega
    | ⟨2, _⟩ => show win0_0.index t (2 : Fin 3) * 4096 + 1 * b.val = b.val; omega
  rw [he]
  exact tokens_apply m c (model t) i b

theorem weights1_block (c : Dev nD) (t : Fin cfg0.N) (z : Fin 1) (h : Fin 256) (i : Fin 64) :
    iblk m c 1 t (ix3 z h i) = m ((c : Thread nD τ).loc main_arg1) (ix3 (model t) i h) := by
  obtain ⟨-, ⟨e0, e1, e2⟩, -⟩ := index_facts t
  have hz : z.val = 0 := by omega
  show V m c main_v3 (((cfg0.win 1).blk t).view.emb (ix3 z h i)) = _
  have he : ((cfg0.win 1).blk t).view.emb (ix3 z h i) = ix3 (model t) h i := by
    funext a; apply Fin.ext
    match a with
    | ⟨0, _⟩ => show win0_1.index t (0 : Fin 3) * 1 + 1 * z.val = t.val; omega
    | ⟨1, _⟩ => show win0_1.index t (1 : Fin 3) * 256 + 1 * h.val = h.val; omega
    | ⟨2, _⟩ => show win0_1.index t (2 : Fin 3) * 64 + 1 * i.val = i.val; omega
  rw [he]
  exact weights1_apply m c (model t) h i

theorem bias1_block (c : Dev nD) (t : Fin cfg0.N) (z : Fin 1) (h : Fin 256) (y : Fin 1) :
    iblk m c 2 t (ix3 z h y) = m ((c : Thread nD τ).loc main_arg2) (ix2 (model t) h) := by
  obtain ⟨-, -, ⟨e0, e1, e2⟩, -⟩ := index_facts t
  have hz : z.val = 0 := by omega
  show V m c main_v4 (((cfg0.win 2).blk t).view.emb (ix3 z h y)) = _
  have he : ((cfg0.win 2).blk t).view.emb (ix3 z h y) = ix3 (model t) h y := by
    funext a; apply Fin.ext
    match a with
    | ⟨0, _⟩ => show win0_2.index t (0 : Fin 3) * 1 + 1 * z.val = t.val; omega
    | ⟨1, _⟩ => show win0_2.index t (1 : Fin 3) * 256 + 1 * h.val = h.val; omega
    | ⟨2, _⟩ => show win0_2.index t (2 : Fin 3) * 1 + 1 * y.val = y.val; omega
  rw [he]
  exact bias1_apply m c (model t) h y

theorem weights2_block (c : Dev nD) (t : Fin cfg0.N) (z : Fin 1) (k : Fin 256) (h : Fin 256) :
    iblk m c 3 t (ix3 z k h) = m ((c : Thread nD τ).loc main_arg3) (ix3 (model t) h k) := by
  obtain ⟨-, -, -, ⟨e0, e1, e2⟩, -⟩ := index_facts t
  have hz : z.val = 0 := by omega
  show V m c main_v6 (((cfg0.win 3).blk t).view.emb (ix3 z k h)) = _
  have he : ((cfg0.win 3).blk t).view.emb (ix3 z k h) = ix3 (model t) k h := by
    funext a; apply Fin.ext
    match a with
    | ⟨0, _⟩ => show win0_3.index t (0 : Fin 3) * 1 + 1 * z.val = t.val; omega
    | ⟨1, _⟩ => show win0_3.index t (1 : Fin 3) * 256 + 1 * k.val = k.val; omega
    | ⟨2, _⟩ => show win0_3.index t (2 : Fin 3) * 256 + 1 * h.val = h.val; omega
  rw [he]
  exact weights2_apply m c (model t) k h

theorem bias2_block (c : Dev nD) (t : Fin cfg0.N) (z : Fin 1) (k : Fin 256) (y : Fin 1) :
    iblk m c 4 t (ix3 z k y) = m ((c : Thread nD τ).loc main_arg4) (ix2 (model t) k) := by
  obtain ⟨-, -, -, -, ⟨e0, e1, e2⟩, -⟩ := index_facts t
  have hz : z.val = 0 := by omega
  show V m c main_v7 (((cfg0.win 4).blk t).view.emb (ix3 z k y)) = _
  have he : ((cfg0.win 4).blk t).view.emb (ix3 z k y) = ix3 (model t) k y := by
    funext a; apply Fin.ext
    match a with
    | ⟨0, _⟩ => show win0_4.index t (0 : Fin 3) * 1 + 1 * z.val = t.val; omega
    | ⟨1, _⟩ => show win0_4.index t (1 : Fin 3) * 256 + 1 * k.val = k.val; omega
    | ⟨2, _⟩ => show win0_4.index t (2 : Fin 3) * 1 + 1 * y.val = y.val; omega
  rw [he]
  exact bias2_apply m c (model t) k y

theorem weights3_block (c : Dev nD) (t : Fin cfg0.N) (z : Fin 1) (y : Fin 1) (k : Fin 256) :
    iblk m c 5 t (ix3 z y k) = m ((c : Thread nD τ).loc main_arg5) (ix3 (model t) k y) := by
  obtain ⟨-, -, -, -, -, ⟨e0, e1, e2⟩, -⟩ := index_facts t
  have hz : z.val = 0 := by omega
  show V m c main_v9 (((cfg0.win 5).blk t).view.emb (ix3 z y k)) = _
  have he : ((cfg0.win 5).blk t).view.emb (ix3 z y k) = ix3 (model t) y k := by
    funext a; apply Fin.ext
    match a with
    | ⟨0, _⟩ => show win0_5.index t (0 : Fin 3) * 1 + 1 * z.val = t.val; omega
    | ⟨1, _⟩ => show win0_5.index t (1 : Fin 3) * 1 + 1 * y.val = y.val; omega
    | ⟨2, _⟩ => show win0_5.index t (2 : Fin 3) * 256 + 1 * k.val = k.val; omega
  rw [he]
  exact weights3_apply m c (model t) y k

theorem bias3_block (c : Dev nD) (t : Fin cfg0.N) (z : Fin 1) (y : Fin 1) (x : Fin 1) :
    iblk m c 6 t (ix3 z y x) = m ((c : Thread nD τ).loc main_arg6) (ix2 (model t) y) := by
  obtain ⟨-, -, -, -, -, -, ⟨e0, e1, e2⟩, -⟩ := index_facts t
  have hz : z.val = 0 := by omega
  show V m c main_v10 (((cfg0.win 6).blk t).view.emb (ix3 z y x)) = _
  have he : ((cfg0.win 6).blk t).view.emb (ix3 z y x) = ix3 (model t) y x := by
    funext a; apply Fin.ext
    match a with
    | ⟨0, _⟩ => show win0_6.index t (0 : Fin 3) * 1 + 1 * z.val = t.val; omega
    | ⟨1, _⟩ => show win0_6.index t (1 : Fin 3) * 1 + 1 * y.val = y.val; omega
    | ⟨2, _⟩ => show win0_6.index t (2 : Fin 3) * 1 + 1 * x.val = x.val; omega
  rw [he]
  exact bias3_apply m c (model t) y x

end Cert.KernelIdeal.Inputs

end
-- ==== Proof.KernelValue.lean ====
/-
  The kernel program's result is the specification's `result`.

  The region's output array is [model, 1, token]. Point t of the grid writes back the slab of model
  t, and what it writes is, token by token, the stored value of the body on model t's blocks:
  with each block read back to the argument arrays this is the three layers with every product
  written weight first, which is `Mlp.output` of model t by commutativity. The 64 slabs are
  disjoint and fill the array, so after the region the array is `Mlp.resultT` of the arguments.
  The one operation after the region swaps the last two axes, which turns `resultT` into `result`.
-/
import proofs.«110798_j82523501625564_1_alg».proof.Proof.Gen.KernelIdeal.Frame
import proofs.«110798_j82523501625564_1_alg».proof.Proof.Mlp
import proofs.«110798_j82523501625564_1_alg».proof.Proof.KernelPayload
import proofs.«110798_j82523501625564_1_alg».proof.Proof.KernelInputs
import Idealize.ShloMosaic.Lib.Pipeline.Value
import Idealize.ShloMosaic.Lib.StableHlo.Run
import Idealize.ShloMosaic.Lib.ValueLayout

set_option maxRecDepth 16384

noncomputable section

namespace Cert.KernelIdeal.RegionValue

open Cert.KernelIdeal Cert.KernelIdeal.Gen Cert.KernelIdeal.Inputs
open Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-- The network's outputs on core `c`'s argument arrays, laid out [model, 1, token]. -/
abbrev regionResult (c : Dev nD) : S64x1x4096.Idx → EReal :=
  Cert.Mlp.resultT (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6))

/-- The same laid out [model, token, 1]. -/
abbrev programResult (c : Dev nD) : S64x4096x1.Idx → EReal :=
  Cert.Mlp.result (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6))

theorem origin : (![0, 0, 0] : Fin 3 → Nat) = fun _ => 0 := funext fun a => by fin_cases a <;> rfl

/-- Entry (u, v, b) of the output block at point `t` is entry (t, v, b) of the output array. -/
theorem out_emb (t : Fin cfg0.N) (u v : Fin 1) (b : Fin 4096) :
    ((cfg0.win 7).blk t).view.emb (ix3 u v b) = ix3 (model t) v b := by
  obtain ⟨-, -, -, -, -, -, -, e0, e1, e2⟩ := index_facts t
  have hu : u.val = 0 := by omega
  funext a; apply Fin.ext
  match a with
  | ⟨0, _⟩ => show win0_7.index t (0 : Fin 3) * 1 + 1 * u.val = t.val; omega
  | ⟨1, _⟩ => show win0_7.index t (1 : Fin 3) * 1 + 1 * v.val = v.val; omega
  | ⟨2, _⟩ => show win0_7.index t (2 : Fin 3) * 4096 + 1 * b.val = b.val; omega

/-- What point `t` writes back is model `t`'s slab of the network's outputs. -/
theorem flushed_eq (c : Dev nD) (t : Fin cfg0.N) :
    (dats m 0 c).flushed 7 t = ((cfg0.win 7).blk t).view.read (Elt Ideal) (regionResult m c) := by
  show (cfg0.win 7).cut (grid0.coords t) ((dats m 0 c).after 7 t) = _
  rw [after0_7]
  unfold out0_7
  rw [View.canon_unit_zero origin]
  simp only [View.ld_unit_zero (S := S1x64x4096) origin, View.ld_unit_zero (S := S1x256x64) origin,
    View.ld_unit_zero (S := S1x256x1) origin, View.ld_unit_zero (S := S1x256x256) origin,
    View.ld_unit_zero (S := S1x1x256) origin, View.ld_unit_zero (S := S1x1x1) origin]
  funext j
  obtain ⟨u, v, b, rfl⟩ : ∃ (u : Fin 1) (v : Fin 1) (b : Fin 4096), j = ix3 u v b := ⟨j 0, j 1, j 2, eq_ix3 j⟩
  refine (Cert.KernelIdeal.Payload.stored_apply (iblk m c 0 t) (iblk m c 1 t) (iblk m c 2 t) (iblk m c 3 t)
    (iblk m c 4 t) (iblk m c 5 t) (iblk m c 6 t) u v b).trans ?_
  simp only [tokens_block, weights1_block, bias1_block, weights2_block, bias2_block, weights3_block, bias3_block]
  refine (Cert.Mlp.output_weight_first _ _ _ _ _ _ _ (model t) b).trans ?_
  show _ = regionResult m c (((cfg0.win 7).blk t).view.emb (ix3 u v b))
  rw [out_emb]
  rfl

/-- An index of the output array is in point `t`'s block iff each coordinate is in the block's range. -/
theorem mem_blk (t : Fin cfg0.N) (i : S64x1x4096.Idx) :
    i ∈ ((cfg0.win 7).blk t).view.set ↔ ∀ a : Fin 3, win0_7.index t a * S1x1x4096.size a ≤ (i a).val
      ∧ (i a).val < win0_7.index t a * S1x1x4096.size a + S1x1x4096.size a := by
  show i ∈ ((View.whole main_v11).slice (win0_7.rect t)).set ↔ _
  rw [View.set_slice_whole, Rect.mem_set_unit]
  exact Iff.rfl

/-- Every entry [a, ·, ·] of the output array is written back by point `a`. -/
theorem cover (i : S64x1x4096.Idx) :
    ∃ t : Fin cfg0.N, (cfg0.win 7).flush t = true ∧ i ∈ ((cfg0.win 7).blk t).view.set := by
  have hi0 : (i 0).val < 64 := (i 0).isLt
  have hi1 : (i 1).val < 1 := (i 1).isLt
  have hi2 : (i 2).val < 4096 := (i 2).isLt
  have hN : cfg0.N = 64 := N_0
  let t : Fin cfg0.N := ⟨(i 0).val, by rw [hN]; exact hi0⟩
  obtain ⟨-, -, -, -, -, -, -, e0, e1, e2⟩ := index_facts t
  have ht : t.val = (i 0).val := rfl
  refine ⟨t, flush0_7 t, ?_⟩
  rw [mem_blk]
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 1 ≤ (i 1).val ∧ (i 1).val < win0_7.index t (1 : Fin 3) * 1 + 1; omega
  | ⟨2, _⟩ => show win0_7.index t (2 : Fin 3) * 4096 ≤ (i 2).val ∧ (i 2).val < win0_7.index t (2 : Fin 3) * 4096 + 4096; omega

/-- After the region the output array holds the network's outputs, [model, 1, token]. -/
theorem region_array (c : Dev nD) : (dats m 0 c).arrAt 7 cfg0.N = regionResult m c :=
  (dats m 0 c).arrAt_eq_of_cover 7 (regionResult m c) (fun t _ => flushed_eq m c t) cover

/-- The transposition after the region turns it into the program's result, [model, token, 1]. -/
theorem tail_eq (c : Dev nD) :
    Pipeline.afterTail₀ cfgs (dats m) 0 (V0 m) [hostOps1] c main_v12 = programResult m c := by
  unfold Pipeline.afterTail₀
  show StableHlo.after hostOps1 _ (Proc.devRef .tc main_v12) = _
  after_results
  have harr : Pipeline.withArrays (cfgs 0).spec c (V0 m c) (fun w => (dats m 0 c).arrAt w (cfgs 0).N)
      (Proc.devRef .tc main_v11) = regionResult m c :=
    (Pipeline.withArrays_arr spec0 launch0.win.arr_inj c (V0 m c) (fun w => (dats m 0 c).arrAt w cfg0.N) 7).trans
      (region_array m c)
  rw [harr]
  funext i
  obtain ⟨a, b, o, rfl⟩ : ∃ (a : Fin 64) (b : Fin 4096) (o : Fin 1), i = ix3 a b o := ⟨i 0, i 1, i 2, eq_ix3 i⟩
  exact transpose_ix3_021_apply _ _ a b o

/-- The kernel program runs, ends with the network's outputs in its result array, and leaves its
    arguments as they were: the frame run, with the result read through the transposition after
    the region. -/
theorem run : θ_run defs (onTc (τ := τ) (main (F := Ideal))) ⟨m, fun _ => 0, ρ⟩ (fun r => ∀ c : Dev nD,
      r.2.mem ((c.tc : Thread nD τ).loc main_v12) = programResult m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_v12 (Pipeline.mem_restRefs_of main_v12 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.RegionValue

end
-- ==== Proof.lean ====
/-
  Sixty-four independent three-layer perceptrons, each applied to its own 4096 tokens
  (64 features → 256 → 256 → 1, rectifiers after the first two layers): a Pallas kernel against a
  plain einsum reference, equal over the extended reals.

  The reference contracts tokens against weights directly, model by model. The kernel first
  transposes the tokens and every weight array so that the token axis comes last, narrows them to
  bf16 (no change of value over the extended reals), runs one grid point per model computing
  weight-matrix times activation-matrix three times with the biases as broadcast columns, writes
  the outputs as [model, 1, token], and transposes that to [model, token, 1]. Both are the function
  `Mlp.result` of the seven argument arrays (Proof/Mlp.lean); the kernel's products have their two
  factors in the other order, and multiplication of extended reals commutes. Nothing in the
  comparison needs the inputs to be finite, so the precondition is never opened.

  The three frames are the programs' runs with the values dropped; the idealization rewrote
  nothing, so its conjunct is `True`.
-/
import proofs.«110798_j82523501625564_1_alg».proof.Defs
import proofs.«110798_j82523501625564_1_alg».proof.Proof.Gen.Kernel
import proofs.«110798_j82523501625564_1_alg».proof.Proof.Gen.Kernel.Skeleton
import proofs.«110798_j82523501625564_1_alg».proof.Proof.Gen.Kernel.Launch
import proofs.«110798_j82523501625564_1_alg».proof.Proof.Gen.Kernel.Points
import proofs.«110798_j82523501625564_1_alg».proof.Proof.Gen.Kernel.Frame
import proofs.«110798_j82523501625564_1_alg».proof.Proof.Gen.KernelIdeal
import proofs.«110798_j82523501625564_1_alg».proof.Proof.Gen.KernelIdeal.Skeleton
import proofs.«110798_j82523501625564_1_alg».proof.Proof.Gen.KernelIdeal.Launch
import proofs.«110798_j82523501625564_1_alg».proof.Proof.Gen.KernelIdeal.Points
import proofs.«110798_j82523501625564_1_alg».proof.Proof.Gen.KernelIdeal.Frame
import proofs.«110798_j82523501625564_1_alg».proof.Proof.Gen.ReferenceIdeal
import proofs.«110798_j82523501625564_1_alg».proof.Proof.Gen.ReferenceIdeal.Run
import proofs.«110798_j82523501625564_1_alg».proof.Proof.Gen.ReferenceIdeal.Read
import proofs.«110798_j82523501625564_1_alg».proof.Proof.Gen.Pre_finite_inputs
import proofs.«110798_j82523501625564_1_alg».proof.Proof.Mlp
import proofs.«110798_j82523501625564_1_alg».proof.Proof.RefValue
import proofs.«110798_j82523501625564_1_alg».proof.Proof.KernelValue
import Idealize.ShloMosaic.Adequacy
import Idealize.ShloMosaic.Init

noncomputable section

namespace Cert.Proof

open Idealize.ShloMosaic Idealize.SL.Sem

/-- The word-level kernel runs and leaves its arguments alone. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- And the reference: its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- From memories that agree on the seven arguments both programs end with `Mlp.result` of those
    arguments in their result arrays: the kernel by its region's slabs and the final
    transposition, the reference by its three contractions read index by index. -/
theorem algebraic : Cert.algebraic_KernelIdeal_ReferenceIdeal := by
  intro m ρ m' ρ' _ hagree
  refine ⟨fun c => Cert.KernelIdeal.RegionValue.programResult m c, Cert.KernelIdeal.RegionValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, Cert.ReferenceIdeal.RefValue.result_eq,
    (hagree c).1, (hagree c).2.1, (hagree c).2.2.1, (hagree c).2.2.2.1, (hagree c).2.2.2.2.1,
    (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
